-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v15 : IVec S800000 32) (main_v16 : IVec S800000 32) : IVec S_ 1 :=
  let main_v17 : IVec S800000 1 := cmpi .sge main_v15 main_v16
  let main_c_5 : IVec S_ 1 := constantI S_ 1 1#1
  let main_v18 : IVec S_ 1 := (fun x v => Host.reduce IntOp.andi x v reducesTo_S800000_S_d0 h_S_) main_v17 main_c_5
  let main_v19 : IVec S_ 1 := andi main_v13 main_v18
  let main_v20 : IVec S1x800000 32 := (extractStridedSlice S1x800000 ![0, 0] · slices_S2x800000_S1x800000_0_0) main_arg1
  let main_v21 : IVec S800000 32 := shapeCast S800000 main_v20 shapeCasts_S1x800000_S800000
  let main_c_6 : IVec S_ 32 := constantI S_ 32 100000#32
  let main_v22 : IVec S800000 32 := broadcastInDim S800000 ![] bcast_S_S800000 main_c_6
  let main_v23 : IVec S800000 1 := cmpi .slt main_v21 main_v22
  let main_c_7 : IVec S_ 1 := constantI S_ 1 1#1
  let main_v24 : IVec S_ 1 := (fun x v => Host.reduce IntOp.andi x v reducesTo_S800000_S_d0 h_S_) main_v23 main_c_7
  let main_v25 : IVec S_ 1 := andi main_v19 main_v24
  main_v25

def fn {F : FTy → Type} [FloatOps F] (main_arg0 : FVec F S100000x128 .f32) (main_arg1 : IVec S2x800000 32) (main_arg2 : FVec F S128x64 .f32) (main_arg3 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x800000 32 := (extractStridedSlice S1x800000 ![0, 0] · slices_S2x800000_S1x800000_0_0) main_arg1
  let main_v15 : IVec S800000 32 := shapeCast S800000 main_v14 shapeCasts_S1x800000_S800000
  let main_c_4 : IVec S_ 32 := constantI S_ 32 4294867296#32
  let main_v16 : IVec S800000 32 := broadcastInDim S800000 ![] bcast_S_S800000 main_c_4
  fn_part1 (F := F) main_arg1 main_v13 main_v15 main_v16
-- ==== Kernel.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩

abbrev nBuf : Space → Nat
  | .hbm => 36
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S1, .i32⟩
  | .hbm, ⟨17, _⟩ => ⟨S_, .i32⟩
  | .hbm, ⟨18, _⟩ => ⟨S800000x1, .i32⟩
  | .hbm, ⟨19, _⟩ => ⟨S800000x1, .i1⟩
  | .hbm, ⟨20, _⟩ => ⟨S1x1, .i32⟩
  | .hbm, ⟨21, _⟩ => ⟨S800000x1, .i32⟩
  | .hbm, ⟨22, _⟩ => ⟨S800000x1, .i1⟩
  | .hbm, ⟨23, _⟩ => ⟨S800000x1, .i1⟩
  | .hbm, ⟨24, _⟩ => ⟨S_, .i1⟩
  | .hbm, ⟨25, _⟩ => ⟨S800000, .i1⟩
  | .hbm, ⟨26, _⟩ => ⟨S800000x128, .f32⟩
  | .hbm, ⟨27, _⟩ => ⟨S800000x128, .i1⟩
  | .hbm, ⟨28, _⟩ => ⟨S_, .f32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S100000x128, .f32⟩
  | .hbm, ⟨33, _⟩ => ⟨S800000x1, .i32⟩
  | .hbm, ⟨34, _⟩ => ⟨S100000x128, .f32⟩
  | .hbm, ⟨35, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000x64 : Shape := ⟨2, ![100000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S100000x128, .f32⟩
  | .hbm, ⟨19, _⟩ => ⟨S800000x1, .i32⟩
  | .hbm, ⟨20, _⟩ => ⟨S100000x128, .f32⟩
  | .hbm, ⟨21, _⟩ => ⟨S100000x128, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x64_S100000x64_1_0_0_1_n_n_wf : DotDims.WF S100000x128 S128x64 S100000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainMatmul.lean ====
/-
  A plain matrix product on the matrix unit, read at an index.

  General: for any extents M, K, N. A product of an [M, K] block by a [K, N] block accumulated into the zero splat is, at
  the exact values, the sum over the contracted coordinate of the products of the entries: entry (a, b) of the result is
  the sum over c of A (a, c) times B (c, b). The accumulator contributes the real number zero, and no rounding or
  chunk order is left at the exact values. The same holds of the host's product of two matrices, which is the same sum;
  the two are joined here through that sum.
-/
import Idealize.ShloMosaic.Lib.StackMember
import Idealize.ShloMosaic.Lib.ValueIdx
import Idealize.ShloMosaic.PureOps.Ideal.Laws

noncomputable section

namespace Idealize.ShloMosaic.PlainMatmul

open Idealize.ShloMosaic Idealize.ShloMosaic.ValueIdx

/-- Entry (a, b) of an [M, K] by [K, N] product into a zero accumulator is the sum over c of A (a, c) * B (c, b). -/
theorem matmul_zero_plain_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    matmul (F := Ideal) (DotDims.plain M K N) prec A B (constant ⟨2, ![M, N]⟩ .f32 0x00000000#32) (ix2 a b)
      = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Idealize.ShloMosaic.PlainMatmul

end
-- ==== Proof.Payload.lean ====
/-
  The kernel body's arithmetic at one entry of its [5000, 64] output block. The body adds the two loaded [5000, 128]
  blocks, multiplies the sum by the loaded [128, 64] weights on the matrix unit into a zero accumulator (the two
  narrowings to bf16 are the identity at the exact values), and adds the bias row broadcast down the block. So entry
  (p, q) is the sum over k of (u[p, k] + v[p, k]) * w[k, q], plus b[q].
-/
import proofs.«404640_j48266842472560_1_alg».proof.Proof.Gen.KernelIdeal.Skeleton
import proofs.«404640_j48266842472560_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Entry (p, q) of the body's stored block, from the four loaded blocks. -/
theorem pay_apply (u v : Vec Ideal S5000x128 .f32) (w : Vec Ideal S128x64 .f32) (b : Vec Ideal S64 .f32)
    (p : Fin 5000) (q : Fin 64) :
    k0_pay1 (F := Ideal) u v w b (ix2 p q) = (∑ k : Fin 128, (u (ix2 p k) + v (ix2 p k)) * w (ix2 k q)) + b (ix1 q) := by
  unfold k0_pay1
  rw [addf_apply]
  refine congrArg₂ (· + ·) ?_ ?_
  · refine (PlainMatmul.matmul_zero_plain_apply none _ _ p q).trans ?_
    refine Finset.sum_congr rfl fun k _ => ?_
    rw [truncf_apply, truncf_apply, addf_apply, shapeCast_self]
  · rw [broadcastTo_1b_ab_apply, shapeCast_a_1a_apply]

end Cert.KernelIdeal.Payload

end
-- ==== Proof.Spec.lean ====
/-
  One graph-convolution layer over 100000 nodes with 128 features and 64 classes, as ONE function of four arrays:
  the node features x, the neighbour aggregate a (for every node the sum of the features of the sources of its
  incoming edges), the weight matrix w and the bias b. Row i, class c of the result is

      sum over k < 128 of (x[i, k] + a[i, k]) * w[k, c], plus b[c].

  Both programs compute exactly this at the exact values: the kernel by a matrix product per block of 5000 rows,
  the reference by one matrix product over all rows. The aggregate enters only as an array, so the layer is stated
  over any a.
-/
import Idealize.ShloMosaic.Lib.ValueIdx
import Idealize.ShloMosaic.PureOps.Ideal

noncomputable section

namespace Cert.Layer

open Idealize.ShloMosaic Idealize.ShloMosaic.ValueIdx

/-- Entry (p, q) of the layer: the p-th row of x + a against the q-th column of w, plus the q-th bias. -/
def entry (x a : FVec Ideal ⟨2, ![100000, 128]⟩ .f32) (w : FVec Ideal ⟨2, ![128, 64]⟩ .f32) (b : FVec Ideal ⟨1, ![64]⟩ .f32)
    (p : Fin 100000) (q : Fin 64) : EReal :=
  (∑ k : Fin 128, (x (ix2 p k) + a (ix2 p k)) * w (ix2 k q)) + b (ix1 q)

/-- The layer's result array. -/
def out (x a : FVec Ideal ⟨2, ![100000, 128]⟩ .f32) (w : FVec Ideal ⟨2, ![128, 64]⟩ .f32) (b : FVec Ideal ⟨1, ![64]⟩ .f32) :
    FVec Ideal ⟨2, ![100000, 64]⟩ .f32 :=
  fun j => entry x a w b (j 0) (j 1)

theorem out_apply (x a : FVec Ideal ⟨2, ![100000, 128]⟩ .f32) (w : FVec Ideal ⟨2, ![128, 64]⟩ .f32) (b : FVec Ideal ⟨1, ![64]⟩ .f32)
    (p : Fin 100000) (q : Fin 64) : out x a w b (ix2 p q) = entry x a w b p q := rfl

end Cert.Layer

end
-- ==== Proof.Blocks.lean ====
/-
  From blocks to the whole array, on the kernel's side. The grid has 20 points; point t stages rows 5000 t to
  5000 t + 4999 of the node features and of the aggregate, the whole weight matrix and the whole bias, and writes back
  rows 5000 t to 5000 t + 4999 of the result. What it writes back is the body's stored block, whose entry (p, q) is
  the layer's entry (5000 t + p, q) (Payload.lean, with each staged block read where it sits in its array). The 20 row
  blocks cover the result array, so after the run the array IS the layer of the arrays the region found.
-/
import proofs.«404640_j48266842472560_1_alg».proof.Proof.Gen.KernelIdeal.Value
import proofs.«404640_j48266842472560_1_alg».proof.Proof.Payload
import proofs.«404640_j48266842472560_1_alg».proof.Proof.Spec

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- The body's stored block at an index j of the block: the row j 0 of the two row blocks against column j 1 of the
    weights, plus the bias at j 1. -/
theorem pay_at (u v : Vec Ideal S5000x128 .f32) (w : Vec Ideal S128x64 .f32) (b : Vec Ideal S64 .f32) (j : S5000x64.Idx) :
    k0_pay1 (F := Ideal) u v w b j
      = (∑ k : Fin 128, (u (ix2 (j 0) k) + v (ix2 (j 0) k)) * w (ix2 k (j 1))) + b (ix1 (j 1)) := by
  obtain ⟨p, q, rfl⟩ : ∃ (p : Fin 5000) (q : Fin 64), j = ix2 p q := ⟨j 0, j 1, eq_ix2 j⟩
  exact Cert.KernelIdeal.Payload.pay_apply u v w b p q

/-- The printed index maps, decided over the 20 points: the two row-block windows move with the output's row block,
    the weights and the bias stay at block 0, and the output's row-block number is the point's number. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) ≤ 19 ∧ win0_4.index t (1 : Fin 2) = 0 :=
  (by decide +kernel : ∀ t : Fin grid0.N, _)

/-- Every one of the 20 row blocks is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- The arrays as the region finds them, and the blocks point t stages, each at its literal type. -/
abbrev xarr (c : Dev nD) : FVec Ideal S100000x128 .f32 := V m c main_arg0
abbrev aarr (c : Dev nD) : FVec Ideal S100000x128 .f32 := V m c main_v7
abbrev warr (c : Dev nD) : FVec Ideal S128x64 .f32 := V m c main_arg2
abbrev barr (c : Dev nD) : FVec Ideal S64 .f32 := V m c main_arg3
abbrev xblk (c : Dev nD) (t : Fin cfg0.N) : Vec Ideal S5000x128 .f32 := iblk m c 0 t
abbrev ablk (c : Dev nD) (t : Fin cfg0.N) : Vec Ideal S5000x128 .f32 := iblk m c 1 t
abbrev wblk (c : Dev nD) (t : Fin cfg0.N) : Vec Ideal S128x64 .f32 := iblk m c 2 t
abbrev bblk (c : Dev nD) (t : Fin cfg0.N) : Vec Ideal S64 .f32 := iblk m c 3 t

/-- Window 0 at point t reads, at (p, k), any array A of its shape at (r, k), r the output block's first row plus p. -/
theorem read0 (A : FVec Ideal S100000x128 .f32) (t : Fin cfg0.N) (p : Fin 5000) (k : Fin 128) (r : Fin 100000)
    (hr : r.val = win0_4.index t (0 : Fin 2) * 5000 + p.val) :
    ((cfg0.win 0).blk t).view.read (Elt Ideal) A (ix2 p k) = A (ix2 r k) := by
  obtain ⟨e00, e01, e10, e11, e20, e21, e30, e40, e41⟩ := idx_facts t
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1 likewise. -/
theorem read1 (A : FVec Ideal S100000x128 .f32) (t : Fin cfg0.N) (p : Fin 5000) (k : Fin 128) (r : Fin 100000)
    (hr : r.val = win0_4.index t (0 : Fin 2) * 5000 + p.val) :
    ((cfg0.win 1).blk t).view.read (Elt Ideal) A (ix2 p k) = A (ix2 r k) := by
  obtain ⟨e00, e01, e10, e11, e20, e21, e30, e40, e41⟩ := idx_facts t
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Window 2 reads the whole [128, 64] array at every point. -/
theorem read2 (A : FVec Ideal S128x64 .f32) (t : Fin cfg0.N) (k : Fin 128) (q : Fin 64) :
    ((cfg0.win 2).blk t).view.read (Elt Ideal) A (ix2 k q) = A (ix2 k q) := by
  obtain ⟨e00, e01, e10, e11, e20, e21, e30, e40, e41⟩ := idx_facts t
  show A (((cfg0.win 2).blk t).view.emb (ix2 k q)) = A (ix2 k q)
  refine congrArg A (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- Window 3 reads the whole [64] array at every point. -/
theorem read3 (A : FVec Ideal S64 .f32) (t : Fin cfg0.N) (q : Fin 64) :
    ((cfg0.win 3).blk t).view.read (Elt Ideal) A (ix1 q) = A (ix1 q) := by
  obtain ⟨e00, e01, e10, e11, e20, e21, e30, e40, e41⟩ := idx_facts t
  show A (((cfg0.win 3).blk t).view.emb (ix1 q)) = A (ix1 q)
  refine congrArg A (funext fun a => Fin.ext ?_)
  match a with
  | ⟨0, _⟩ => show win0_3.index t (0 : Fin 1) * 64 + 1 * q.val = q.val; omega

/-- Row p of point t's block of the node features is row r of the array, r the block's first row plus p. -/
theorem xblk_apply (c : Dev nD) (t : Fin cfg0.N) (p : Fin 5000) (k : Fin 128) (r : Fin 100000)
    (hr : r.val = win0_4.index t (0 : Fin 2) * 5000 + p.val) : xblk m c t (ix2 p k) = xarr m c (ix2 r k) :=
  read0 (xarr m c) t p k r hr

/-- The same for the aggregate's block. -/
theorem ablk_apply (c : Dev nD) (t : Fin cfg0.N) (p : Fin 5000) (k : Fin 128) (r : Fin 100000)
    (hr : r.val = win0_4.index t (0 : Fin 2) * 5000 + p.val) : ablk m c t (ix2 p k) = aarr m c (ix2 r k) :=
  read1 (aarr m c) t p k r hr

/-- Every point stages the whole weight matrix. -/
theorem wblk_apply (c : Dev nD) (t : Fin cfg0.N) (k : Fin 128) (q : Fin 64) : wblk m c t (ix2 k q) = warr m c (ix2 k q) :=
  read2 (warr m c) t k q

/-- Every point stages the whole bias. -/
theorem bblk_apply (c : Dev nD) (t : Fin cfg0.N) (q : Fin 64) : bblk m c t (ix1 q) = barr m c (ix1 q) :=
  read3 (barr m c) t q

/-- WHAT POINT t WRITES BACK is block t of the layer of the arrays as the region finds them. -/
theorem flushed_eq (c : Dev nD) (t : Fin cfg0.N) :
    (dats m 0 c).flushed 4 t = ((cfg0.win 4).blk t).view.read (Elt Ideal)
      (Cert.Layer.out (xarr m c) (aarr m c) (warr m c) (barr m c)) := by
  rw [Cert.KernelIdeal.Value.flushed4]
  unfold out0_4
  rw [View.canon_unit_zero hz]
  simp only [View.ld_unit_zero (S := S5000x128) hz, View.ld_unit_zero (S := S128x64) hz, View.ld_unit_zero (S := S64) hz1]
  obtain ⟨e00, e01, e10, e11, e20, e21, e30, e40, e41⟩ := idx_facts t
  funext j
  show k0_pay1 (F := Ideal) (xblk m c t) (ablk m c t) (wblk m c t) (bblk m c t) j
    = Cert.Layer.entry (xarr m c) (aarr m c) (warr m c) (barr m c) ((((cfg0.win 4).blk t).view.emb j) 0) ((((cfg0.win 4).blk t).view.emb j) 1)
  refine (pay_at (xblk m c t) (ablk m c t) (wblk m c t) (bblk m c t) j).trans ?_
  unfold Cert.Layer.entry
  have hj0 : (j 0).val < 5000 := (j 0).isLt
  have hj1 : (j 1).val < 64 := (j 1).isLt
  have h0 : ((((cfg0.win 4).blk t).view.emb j) 0).val = win0_4.index t (0 : Fin 2) * 5000 + (j 0).val := by
    show win0_4.index t (0 : Fin 2) * 5000 + 1 * (j 0).val = _
    omega
  have h1 : (((cfg0.win 4).blk t).view.emb j) 1 = j 1 :=
    Fin.ext (by show win0_4.index t (1 : Fin 2) * 64 + 1 * (j 1).val = (j 1).val; omega)
  refine congrArg₂ (· + ·) (Finset.sum_congr rfl fun k _ => ?_) ?_
  · exact congrArg₂ (· * ·)
      (congrArg₂ (· + ·) (xblk_apply m c t (j 0) k _ h0) (ablk_apply m c t (j 0) k _ h0))
      ((wblk_apply m c t k (j 1)).trans (congrArg (fun z => warr m c (ix2 k z)) h1.symm))
  · exact (bblk_apply m c t (j 1)).trans (congrArg (fun z => barr m c (ix1 z)) h1.symm)

/-- An index of the result array is in point t's block iff its row lies in the block's 5000 rows (and its column in
    the 64 columns). -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v8).slice (win0_4.rect t)).set ↔ _
  rw [View.set_slice_whole, Rect.mem_set_unit]
  exact Iff.rfl

/-- The 20 row blocks cover the result array: row r lies in block r / 5000. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the run is the layer of the arrays the region found. -/
theorem final (c : Dev nD) :
    (dats m 0 c).arrAt 4 cfg0.N = Cert.Layer.out (xarr m c) (aarr m c) (warr m c) (barr m c) :=
  (dats m 0 c).arrAt_eq_of_cover 4 _ (fun t _ => flushed_eq m c t) cover

end Cert.KernelIdeal.Blocks

end
-- ==== Proof.LibTakeFill.lean ====
/-
  A TAKE WITH OUT-OF-RANGE ENTRIES FILLED. `jnp.take(table, idx)` in its default mode first wraps a negative index the
  way NumPy does (`w = idx + N` where `idx < 0`, else `w = idx`, `N` the table's extent), then keeps the gathered entry
  where `0 ≤ w ≤ N - 1` and writes a fill value elsewhere. The in-range test is printed over the [n × 1] column of wrapped
  indices: the reduction by `and` along the second axis of `(col ≥ lo) & (col ≤ hi)`.

  * `wrap_in_range`: an index in `[-N, N)` wraps into `[0, N - 1]`;
  * `wrap_of_nonneg`: a non-negative index is left as it is;
  * `foldl_andi_of_all_one`: a left fold by `and` from 1 over `i1` words that are all 1 is 1;
  * `fill_mask_eq_one`: the printed in-range test is 1 at a row whose wrapped index lies between the bounds.

  Every statement holds at any number of rows `n` and any table extent below 2³⁰.
-/
import Idealize.ShloMosaic.Lib.ReduceAll
import Idealize.ShloMosaic.Lib.StableHlo.Predicate
import Idealize.ShloMosaic.Lib.ValueIdx

namespace Cert.Lib.TakeFill

open Idealize.ShloMosaic
open Idealize.ShloMosaic.StableHlo.Predicate (ixP)
open Idealize.ShloMosaic.ValueIdx (ix1)

/-- An integer in the signed 32-bit range is its own balanced remainder modulo 2³². -/
private theorem bmod_self {m : Int} (h₁ : -2 ^ 31 ≤ m) (h₂ : m < 2 ^ 31) : m.bmod (2 ^ 32) = m :=
  Int.bmod_eq_of_le (by omega) (by omega)

/-- The extent of a table below 2³⁰, as a 32-bit word, reads as itself. -/
private theorem toInt_extent (N : Nat) (hN : N < 2 ^ 31) : (BitVec.ofNat 32 N).toInt = (N : Int) := by
  rw [BitVec.toInt_ofNat']
  exact bmod_self (by omega) (by omega)

/-- THE WRAP LANDS IN RANGE. For a table of extent `N` (positive, below 2³⁰) an index `x` with `-N ≤ x < N`, wrapped
    the NumPy way (`x + N` where `x < 0`, else `x`), lies in `[0, N - 1]`: a negative `x` has `0 ≤ x + N ≤ N - 1` and the
    sum does not leave the word; a non-negative `x` is below `N` already. -/
theorem wrap_in_range (N : Nat) (hN : 0 < N) (hN' : N < 2 ^ 30) (x : BitVec 32) (hlo : -(N : Int) ≤ x.toInt)
    (hhi : x.toInt < (N : Int)) :
    0 ≤ (Scalar.select (IntOp.cmpi .slt x 0#32) (IntOp.addi x (BitVec.ofNat 32 N)) x).toInt ∧
      (Scalar.select (IntOp.cmpi .slt x 0#32) (IntOp.addi x (BitVec.ofNat 32 N)) x).toInt ≤ (N : Int) - 1 := by
  have h0 : (0#32).toInt = 0 := rfl
  by_cases h : x.toInt < 0
  · have hc : IntOp.cmpi .slt x 0#32 = (1 : BitVec 1) := IntOp.cmpi_slt.2 (by rw [h0]; exact h)
    have hn : (BitVec.ofNat 32 N).toInt = (N : Int) := toInt_extent N (by omega)
    have hs : (IntOp.addi x (BitVec.ofNat 32 N)).toInt = x.toInt + (N : Int) := by
      rw [IntOp.addi, BitVec.toInt_add, hn]
      exact bmod_self (by omega) (by omega)
    rw [Scalar.select, if_pos hc, hs]
    omega
  · have hc : ¬ IntOp.cmpi .slt x 0#32 = (1 : BitVec 1) := fun e => h (by have := IntOp.cmpi_slt.1 e; rwa [h0] at this)
    rw [Scalar.select, if_neg hc]
    omega

/-- A NON-NEGATIVE INDEX IS NOT WRAPPED: the comparison `x < 0` fails, so the selection keeps `x`. -/
theorem wrap_of_nonneg (N : Nat) (x : BitVec 32) (h : 0 ≤ x.toInt) :
    Scalar.select (IntOp.cmpi .slt x 0#32) (IntOp.addi x (BitVec.ofNat 32 N)) x = x := by
  have h0 : (0#32).toInt = 0 := rfl
  have hc : ¬ IntOp.cmpi .slt x 0#32 = (1 : BitVec 1) := fun e => by
    have := IntOp.cmpi_slt.1 e
    rw [h0] at this
    omega
  rw [Scalar.select, if_neg hc]

/-- A left fold by `and` from 1 over `i1` words that are all 1 is 1 (the converse of reading such a fold back). -/
theorem foldl_andi_of_all_one {ι : Type} (f : ι → BitVec 1) :
    ∀ l : List ι, (∀ i ∈ l, f i = 1#1) → l.foldl (fun r i => IntOp.andi r (f i)) 1#1 = 1#1
  | [], _ => rfl
  | a :: l, h => by
    have ha : IntOp.andi 1#1 (f a) = 1#1 := IntOp.andi_eq_one.2 ⟨rfl, h a List.mem_cons_self⟩
    rw [List.foldl_cons, ha]
    exact foldl_andi_of_all_one f l fun i hi => h i (List.mem_cons_of_mem _ hi)

/-- THE IN-RANGE TEST AT A ROW. The reduction by `and` along the second axis of `(col ≥ lo) & (col ≤ hi)` over an
    [n × 1] column, from an initial value whose element is 1, is 1 at row `p` as soon as the column's entry of that row
    lies between the two bounds' entries there: the only index of the column that reduces into row `p` is (`p`, 0), and
    both comparisons hold at it. -/
theorem fill_mask_eq_one {n : Nat} {u : Shape} (hred : (⟨2, ![n, 1]⟩ : Shape).ReducesTo [1] ⟨1, ![n]⟩)
    (hu : 0 < u.numel) (init : u.Idx → BitVec 1) (hinit : init (Shape.Idx.first hu) = 1#1)
    (col lo hi : IVec ⟨2, ![n, 1]⟩ 32) (p : Fin n)
    (hx : (lo (ixP p)).toInt ≤ (col (ixP p)).toInt ∧ (col (ixP p)).toInt ≤ (hi (ixP p)).toInt) :
    Host.reduce IntOp.andi (andi (cmpi .sge col lo) (cmpi .sle col hi)) init hred hu (ix1 p) = 1#1 := by
  rw [Host.reduce_eq_foldl, hinit]
  refine foldl_andi_of_all_one _ _ fun i hmem => ?_
  -- an index that reduces into row p is (p, 0)
  have hd : hred.drop i = ix1 p := of_decide_eq_true (List.mem_filter.1 hmem).2
  have hv : (hred.drop i 0 : Nat) = i 0 := Shape.ReducesTo.drop_apply_val hred i 0
  have hr : (i 0 : Nat) = p := by rw [← hv, hd]; rfl
  have hip : i = ixP p := by
    funext b
    match b with
    | ⟨0, _⟩ => exact Fin.ext hr
    | ⟨1, _⟩ => exact Subsingleton.elim (α := Fin 1) _ _
  subst hip
  exact IntOp.andi_eq_one.2 ⟨IntOp.cmpi_sge.2 hx.1, IntOp.cmpi_sle.2 hx.2⟩

end Cert.Lib.TakeFill
-- ==== Proof.Aggregate.lean ====
/-
  The neighbour aggregate as the kernel's host code computes it before the pallas_call, and what it is under the
  precondition. The host code takes row 0 of the edge list (the sources) and row 1 (the destinations); wraps each
  source the way an index counting from the end is wrapped (s + 100000 where s < 0); gathers the rows of x at the
  wrapped sources; replaces a gathered row by the fill value where the wrapped source is outside [0, 99999]; and
  scatter-adds the rows into a zero array at the destinations. With every source in [-100000, 100000) every wrapped
  source is inside [0, 99999], the in-range test is 1 at every edge, nothing is replaced, and the aggregate is the
  scatter-add of the plainly gathered rows.

  The host code is three stretches of operations (the two rows cut out; the gather with fill; the scatter-add). What
  the last buffer holds is read stretch by stretch, each over an arbitrary valuation of the buffers before it.
-/
import proofs.«404640_j48266842472560_1_alg».proof.Proof.Gen.KernelIdeal.Frame
import proofs.«404640_j48266842472560_1_alg».proof.Proof.LibTakeFill
import Idealize.ShloMosaic.Lib.StableHlo.Run
import Idealize.ShloMosaic.Lib.Pipeline.Value
import Idealize.ShloMosaic.Lib.StableHlo.Predicate
import Idealize.ShloMosaic.Lib.ValueIdx

noncomputable section

namespace Cert.KernelIdeal.Aggregate

open Cert.KernelIdeal Cert.KernelIdeal.Facts₀ Idealize.ShloMosaic Idealize.ShloMosaic.TcCoe Idealize.SL.Sem
open Idealize.ShloMosaic.StableHlo
open Idealize.ShloMosaic.ValueIdx (ix1)
open Idealize.ShloMosaic.StableHlo.Predicate (ixP)

/-- Row 0 of the edge list as a vector: the sources. -/
def sources (e : IVec S2x800000 32) : IVec S800000 32 :=
  shapeCast S800000 (extractStridedSlice S1x800000 ![0, 0] e slices_S2x800000_S1x800000_0_0) shapeCasts_S1x800000_S800000

/-- Row 1: the destinations. -/
def dests (e : IVec S2x800000 32) : IVec S800000 32 :=
  shapeCast S800000 (extractStridedSlice S1x800000 ![1, 0] e slices_S2x800000_S1x800000_1_0) shapeCasts_S1x800000_S800000

/-- Indices s, a negative one wrapped by adding the extent 100000. -/
def wrapped (s : IVec S800000 32) : IVec S800000 32 :=
  select (cmpi .slt s (broadcastInDim S800000 ![] bcast_S_S800000 (constantI S_ 32 0#32)))
    (addi s (broadcastInDim S800000 ![] bcast_S_S800000 (constantI S_ 32 100000#32))) s

/-- The wrapped indices as an [800000, 1] column of start indices. -/
def column (s : IVec S800000 32) : IVec S800000x1 32 :=
  broadcastInDim S800000x1 ![0] bcast_S800000_S800000x1_0 (wrapped s)

/-- The in-range test of every edge: 0 ≤ wrapped index ≤ 99999. -/
def inRange (s : IVec S800000 32) : IVec S800000 1 :=
  Host.reduce IntOp.andi
    (andi (cmpi .sge (column s) (broadcastInDim S800000x1 ![] bcast_S_S800000x1 (constantI S_ 32 0#32)))
      (cmpi .sle (column s) (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The rows of x at the wrapped indices. -/
def rows (x : FVec Ideal S100000x128 .f32) (s : IVec S800000 32) : FVec Ideal S800000x128 .f32 :=
  Host.gather gather_S100000x128_S800000x1_S800000x128_1_0_n_n_0_1_1128 x (column s)

/-- The gathered rows, the fill value where the in-range test fails. -/
def taken (x : FVec Ideal S100000x128 .f32) (s : IVec S800000 32) : FVec Ideal S800000x128 .f32 :=
  select (broadcastInDim S800000x128 ![0] bcast_S800000_S800000x128_0 (inRange s)) (rows x s)
    (broadcastInDim S800000x128 ![] bcast_S_S800000x128 (constant S_ .f32 0x7FC00000#32))

/-- Rows u scatter-added into a zero array at the indices d. -/
def summed (u : FVec Ideal S800000x128 .f32) (d : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 d) u

/-! ## The three stretches -/

/-- A line of operations run after another: the second from what the first leaves. -/
theorem after_append (A B : List (HloOp τ sig (Elt Ideal))) (W : Valuation τ sig (Elt Ideal)) :
    after (A ++ B) W = after B (after A W) := by
  induction A generalizing W with
  | nil => rfl
  | cons op A ih => simp only [List.cons_append, after_cons, ih]

/-- The first stretch leaves the sources in `main_v1`. -/
theorem stretch0_v1 (W : Valuation τ sig (Elt Ideal)) :
    after Gen.hostOps0 W (Proc.devRef .tc main_v1) = sources (W (Proc.devRef .tc main_arg1)) := by
  after_results
  rfl

/-- … the destinations in `main_v3`. -/
theorem stretch0_v3 (W : Valuation τ sig (Elt Ideal)) :
    after Gen.hostOps0 W (Proc.devRef .tc main_v3) = dests (W (Proc.devRef .tc main_arg1)) := by
  after_results
  rfl

/-- … and x where it was. -/
theorem stretch0_arg0 (W : Valuation τ sig (Elt Ideal)) :
    after Gen.hostOps0 W (Proc.devRef .tc main_arg0) = W (Proc.devRef .tc main_arg0) := by
  after_results

/-- The third stretch leaves in `main_v7` the scatter-add of the rows in `main_v4` at the indices in `main_v3`. -/
theorem stretch2_v7 (W : Valuation τ sig (Elt Ideal)) :
    after Gen.hostOps0_2 W (Proc.devRef .tc main_v7) = summed (W (Proc.devRef .tc main_v4)) (W (Proc.devRef .tc main_v3)) := by
  after_results
  rfl

/-- Contents moved to a typed reference's buffer type and back are the contents. -/
theorem ofBuf_toBuf {T : BufTy} (x : TRef sig T) (v : T.Contents (Elt Ideal)) : x.ofBuf (x.toBuf v) = v := by
  obtain ⟨ref, rfl, h2, h3⟩ := x
  rfl

/-- The second stretch leaves the indices in `main_v3` where they were. -/
theorem stretch1_v3 (W : Valuation τ sig (Elt Ideal)) :
    after Gen.hostOps0_1 W (Proc.devRef .tc main_v3) = W (Proc.devRef .tc main_v3) := by
  after_results

set_option maxHeartbeats 1600000 in
/-- The second stretch leaves in `main_v4` the rows of the array in `main_arg0` taken with fill at the indices in
    `main_v1`. -/
theorem stretch1_v4 (W : Valuation τ sig (Elt Ideal)) :
    after Gen.hostOps0_1 W (Proc.devRef .tc main_v4) = taken (W (Proc.devRef .tc main_arg0)) (W (Proc.devRef .tc main_v1)) := by
  after_results_simp
  simp only [ofBuf_toBuf]
  have leaf1 : ((.of main_v1 : TRef sig ⟨S800000, .i32⟩).ofBuf (W (Proc.devRef .tc main_v1)) : IVec S800000 32)
      = W (Proc.devRef .tc main_v1) := rfl
  have leaf0 : ((.of main_arg0 : TRef sig ⟨S100000x128, .f32⟩).ofBuf (W (Proc.devRef .tc main_arg0)) : FVec Ideal S100000x128 .f32)
      = W (Proc.devRef .tc main_arg0) := rfl
  have root : ∀ u : FVec Ideal S800000x128 .f32,
      ((.of main_v4 : TRef sig ⟨S800000x128, .f32⟩).toBuf (Val := Elt Ideal) u : FVec Ideal S800000x128 .f32) = u := fun u => rfl
  rw [leaf1, leaf0, root]
  unfold taken rows inRange column wrapped
  with_reducible rfl

variable (m : (ℓ : Loc nD τ sig) → Buf (Elt Ideal) ℓ)

/-- THE AGGREGATE THE REGION FINDS: the scatter-add, at the destinations, of the rows of x taken with fill at the sources. -/
theorem V_agg (c : Dev nD) :
    (Gen.V m c main_v7 : FVec Ideal S100000x128 .f32)
      = summed (taken (m ((c : Thread nD τ).loc main_arg0)) (sources (m ((c : Thread nD τ).loc main_arg1))))
          (dests (m ((c : Thread nD τ).loc main_arg1))) := by
  unfold Gen.V
  rw [show List.flatten [Gen.hostOps0 (F := Ideal), Gen.hostOps0_1, Gen.hostOps0_2] = Gen.hostOps0 ++ (Gen.hostOps0_1 ++ Gen.hostOps0_2) from by
    simp only [List.flatten_cons, List.flatten_nil, List.append_nil]]
  rw [after_append, after_append, stretch2_v7, stretch1_v4, stretch1_v3, stretch0_v1, stretch0_v3, stretch0_arg0]

/-! ## Under the precondition nothing is filled -/

/-- The wrapped index of edge p, as a word. -/
theorem column_apply (s : IVec S800000 32) (p : Fin 800000) :
    column s (ixP p)
      = Scalar.select (IntOp.cmpi .slt (s (ix1 p)) 0#32) (IntOp.addi (s (ix1 p)) (BitVec.ofNat 32 100000)) (s (ix1 p)) := by
  have hp : Shape.Idx.ofFin p = ix1 p := funext fun d => by match d with | ⟨0, _⟩ => rfl
  unfold column
  rw [Predicate.bcast_col1, hp]
  rfl

/-- With every index in [-100000, 100000) the in-range test is 1 at every edge. -/
theorem inRange_one (s : IVec S800000 32)
    (hs : ∀ i : S800000.Idx, -100000 ≤ (s i).toInt ∧ (s i).toInt < 100000) (p : Fin 800000) :
    inRange s (ix1 p) = 1#1 := by
  unfold inRange
  refine Cert.Lib.TakeFill.fill_mask_eq_one reducesTo_S800000x1_S800000_d1 h_S_ _ rfl _ _ _ p ?_
  have hlo : (broadcastInDim S800000x1 ![] bcast_S_S800000x1 (constantI S_ 32 0#32) : IVec S800000x1 32) (ixP p) = 0#32 := rfl
  have hhi : (broadcastInDim S800000x1 ![0, 1] bcast_S1x1_S800000x1_0_1
      (broadcastInDim S1x1 ![1] bcast_S1_S1x1_1 (constantI S1 32 99999#32)) : IVec S800000x1 32) (ixP p) = 99999#32 := rfl
  rw [hlo, hhi, column_apply]
  have hw := Cert.Lib.TakeFill.wrap_in_range 100000 (by decide) (by decide) (s (ix1 p)) (hs _).1 (hs _).2
  have h0 : (0#32 : BitVec 32).toInt = 0 := by decide
  have h9 : (99999#32 : BitVec 32).toInt = 99999 := by decide
  rw [h0, h9]
  exact ⟨hw.1, by have := hw.2; omega⟩

/-- So every gathered row is kept: the rows taken with fill are the rows gathered. -/
theorem taken_eq_rows (x : FVec Ideal S100000x128 .f32) (s : IVec S800000 32)
    (hs : ∀ i : S800000.Idx, -100000 ≤ (s i).toInt ∧ (s i).toInt < 100000) :
    taken x s = rows x s := by
  funext j
  unfold taken
  rw [ValueIdx.select_apply]
  have hm : (broadcastInDim S800000x128 ![0] bcast_S800000_S800000x128_0 (inRange s) : IVec S800000x128 1) j = 1#1 := by
    rw [broadcastInDim_apply _ bcast_S800000_S800000x128_0 (inRange s) j (ix1 (j 0)) (fun a => match a with
      | ⟨0, _⟩ => by show (j 0).val = if (800000 : Nat) = 1 then 0 else (j 0).val; rw [if_neg (by decide)])]
    exact inRange_one s hs (j 0)
  rw [hm, Scalar.select]
  exact if_pos (by decide)

end Cert.KernelIdeal.Aggregate

end
-- ==== Proof.SrcRange.lean ====
/-
  What the precondition says of the edge list. Its last two conjuncts are the two reductions by `and`, over all 800000
  edges, of "the edge's source is at least -100000" and "the edge's source is below 100000", the sources being row 0
  of the [2, 800000] edge list read as a vector. Where the precondition is all ones, both reductions are 1, so every
  source s has -100000 ≤ s < 100000: the range in which an index into an axis of extent 100000 is meaningful, a
  negative one counting from the end.
-/
import proofs.«404640_j48266842472560_1_alg».proof.Pre_finite_inputs
import Idealize.ShloMosaic.Lib.ReduceAll
import Idealize.ShloMosaic.Lib.ValueIdx

noncomputable section

namespace Cert.Pre_finite_inputs.Decode

open Cert.Pre_finite_inputs Cert.Pre_finite_inputs.Facts Idealize.ShloMosaic

variable [Facts]

instance : Subsingleton S_.Idx := ⟨fun a b => funext fun d => d.elim0⟩

/-- Row 0 of the edge list as a vector: the edges' sources. -/
def sources (e : IVec S2x800000 32) : IVec S800000 32 :=
  shapeCast S800000 (extractStridedSlice S1x800000 ![0, 0] e slices_S2x800000_S1x800000_0_0) shapeCasts_S1x800000_S800000

/-- The word the lower bound is printed as denotes -100000. -/
theorem lower_word : (4294867296#32 : BitVec 32).toInt = -100000 := by decide

/-- The word of the upper bound denotes 100000. -/
theorem upper_word : (100000#32 : BitVec 32).toInt = 100000 := by decide

/-- EVERY SOURCE IS IN RANGE where the precondition holds. -/
theorem sources_range {F : FTy → Type} [FloatOps F] (x : FVec F S100000x128 .f32) (e : IVec S2x800000 32)
    (w : FVec F S128x64 .f32) (b : FVec F S64 .f32) (h : fn (F := F) x e w b = fun _ => 1#1) (i : S800000.Idx) :
    -100000 ≤ (sources e i).toInt ∧ (sources e i).toInt < 100000 := by
  have h0 := congrFun h ValueIdx.ix0
  unfold fn fn_part1 at h0
  obtain ⟨h1, hlt⟩ := IntOp.andi_eq_one.1 h0
  obtain ⟨_, hge⟩ := IntOp.andi_eq_one.1 h1
  have a := IntOp.cmpi_sge.1 (Host.reduce_andi_all _ _ _ _ _ hge i)
  have c := IntOp.cmpi_slt.1 (Host.reduce_andi_all _ _ _ _ _ hlt i)
  exact ⟨lower_word ▸ a, upper_word ▸ c⟩

end Cert.Pre_finite_inputs.Decode

end
-- ==== Proof.RefValue.lean ====
/-
  The reference's result is the layer of Spec.lean over the reference's own neighbour aggregate. The reference adds the
  aggregate to x, multiplies by w in one matrix product over all 100000 rows, and adds the bias broadcast along the
  rows; read at entry (p, q) that is the sum over k of (x[p, k] + a[p, k]) * w[k, q], plus b[q], with a the array the
  scatter-add produced. The gather and the scatter-add are not opened: they enter as one array.
-/
import proofs.«404640_j48266842472560_1_alg».proof.Proof.Gen.ReferenceIdeal.Read
import proofs.«404640_j48266842472560_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The left factor's index of the product at (p, q), k-th term: (p, k). -/
theorem lidx_eq (p : Fin 100000) (q : Fin 64) (k : Fin 128) : lidx_main_v15 (ix2 p q) k = ix2 p k :=
  funext fun a => Fin.ext (by match a with | ⟨0, _⟩ => rfl | ⟨1, _⟩ => rfl)

/-- The right factor's index: (k, q). -/
theorem ridx_eq (p : Fin 100000) (q : Fin 64) (k : Fin 128) : ridx_main_v15 (ix2 p q) k = ix2 k q :=
  funext fun a => Fin.ext (by match a with | ⟨0, _⟩ => rfl | ⟨1, _⟩ => rfl)

/-- The bias entry read at (p, q) through the two broadcasts: b[q]. -/
theorem bidx_eq (p : Fin 100000) (q : Fin 64) : idx_main_v16 (idx_main_v17 (ix2 p q)) = ix1 q :=
  funext fun a => Fin.ext (by match a with | ⟨0, _⟩ => rfl)

/-- THE REFERENCE IS THE LAYER over its own aggregate (the scatter-add's result, `val_main_v13`). -/
theorem ref_eq (x : FVec Ideal S100000x128 .f32) (e : IVec S2x800000 32) (w : FVec Ideal S128x64 .f32) (b : FVec Ideal S64 .f32) :
    val_main_v18 (F := Ideal) x e w b = Cert.Layer.out x (val_main_v13 (F := Ideal) x e) w b := by
  funext j
  obtain ⟨p, q, rfl⟩ : ∃ (p : Fin 100000) (q : Fin 64), j = ix2 p q := ⟨j 0, j 1, eq_ix2 j⟩
  rw [val_main_v18_apply, val_main_v15_apply, val_main_v17_apply, val_main_v16_apply, Cert.Layer.out_apply]
  simp only [val_main_v14_apply, lidx_eq, ridx_eq, bidx_eq, Ideal.addf_def]
  rfl

end Cert.ReferenceIdeal.RefValue

end
-- ==== Proof.Join.lean ====
/-
  The two programs meet. Under the precondition the kernel's result array is the layer (Spec.lean) of x, of the
  scatter-add of the plainly gathered rows, of w and of b: the blocks give the layer of the arrays the region found
  (Blocks.lean), the host code gives the aggregate among them (Aggregate.lean), and the sources' range, read out of the
  precondition (SrcRange.lean), removes the fill. The reference's result is the layer over its own aggregate
  (RefValue.lean), and the two aggregates are one term: the scatter-add, at the destinations, of the rows of x gathered
  at the wrapped sources. No law of the extended reals is needed beyond that: both sides are the same sum.
-/
import proofs.«404640_j48266842472560_1_alg».proof.Defs
import proofs.«404640_j48266842472560_1_alg».proof.Proof.Gen.Pre_finite_inputs
import proofs.«404640_j48266842472560_1_alg».proof.Proof.Blocks
import proofs.«404640_j48266842472560_1_alg».proof.Proof.Aggregate
import proofs.«404640_j48266842472560_1_alg».proof.Proof.SrcRange
import proofs.«404640_j48266842472560_1_alg».proof.Proof.RefValue

noncomputable section

namespace Cert.Join

open Idealize.ShloMosaic Idealize.ShloMosaic.TcCoe Idealize.SL.Sem

/-- The reference's aggregate and the kernel's, once nothing is filled, are the same term. -/
theorem agg_same (x : FVec Ideal Cert.KernelIdeal.S100000x128 .f32) (e : IVec Cert.KernelIdeal.S2x800000 32) :
    Cert.ReferenceIdeal.Read.val_main_v13 (F := Ideal) x e
      = Cert.KernelIdeal.Aggregate.summed (Cert.KernelIdeal.Aggregate.rows x (Cert.KernelIdeal.Aggregate.sources e))
          (Cert.KernelIdeal.Aggregate.dests e) := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0
  unfold Cert.KernelIdeal.Aggregate.summed Cert.KernelIdeal.Aggregate.rows Cert.KernelIdeal.Aggregate.column
    Cert.KernelIdeal.Aggregate.wrapped Cert.KernelIdeal.Aggregate.sources Cert.KernelIdeal.Aggregate.dests
  rfl

variable (m : (ℓ : Loc Cert.KernelIdeal.nD Cert.KernelIdeal.τ Cert.KernelIdeal.sig) → Buf (Elt Ideal) ℓ)

/-- THE KERNEL'S RESULT under the precondition: the layer of the launch arrays, over the reference's aggregate. -/
theorem kernel_value (hpre : Cert.Pre_KernelIdeal m) (c : Dev Cert.KernelIdeal.nD) :
    (Cert.KernelIdeal.Gen.dats m 0 c).arrAt 4 Cert.KernelIdeal.cfg0.N
      = Cert.Layer.out (m ((c.tc : Thread Cert.KernelIdeal.nD Cert.KernelIdeal.τ).loc Cert.KernelIdeal.main_arg0))
          (Cert.ReferenceIdeal.Read.val_main_v13 (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  rw [Cert.KernelIdeal.Blocks.final]
  have hx : Cert.KernelIdeal.Blocks.xarr m c = m ((c.tc : Thread Cert.KernelIdeal.nD Cert.KernelIdeal.τ).loc Cert.KernelIdeal.main_arg0) :=
    Cert.KernelIdeal.Gen.V_main_arg0 m c
  have hw : Cert.KernelIdeal.Blocks.warr m c = m ((c.tc : Thread Cert.KernelIdeal.nD Cert.KernelIdeal.τ).loc Cert.KernelIdeal.main_arg2) :=
    Cert.KernelIdeal.Gen.V_main_arg2 m c
  have hb : Cert.KernelIdeal.Blocks.barr m c = m ((c.tc : Thread Cert.KernelIdeal.nD Cert.KernelIdeal.τ).loc Cert.KernelIdeal.main_arg3) :=
    Cert.KernelIdeal.Gen.V_main_arg3 m c
  have hs : ∀ i : Cert.KernelIdeal.S800000.Idx,
      -100000 ≤ (Cert.KernelIdeal.Aggregate.sources (m ((c.tc : Thread Cert.KernelIdeal.nD Cert.KernelIdeal.τ).loc Cert.KernelIdeal.main_arg1)) i).toInt
      ∧ (Cert.KernelIdeal.Aggregate.sources (m ((c.tc : Thread Cert.KernelIdeal.nD Cert.KernelIdeal.τ).loc Cert.KernelIdeal.main_arg1)) i).toInt < 100000 :=
    fun i => Cert.Pre_finite_inputs.Decode.sources_range _ _ _ _ (hpre c) i
  have ha : Cert.KernelIdeal.Blocks.aarr m c
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    refine (Cert.KernelIdeal.Aggregate.V_agg m c).trans ?_
    rw [Cert.KernelIdeal.Aggregate.taken_eq_rows _ _ hs]
    exact (agg_same _ _).symm
  rw [hx, hw, hb, ha]

/-- THE ALGEBRAIC CONJUNCT: from memories agreeing on the arguments both programs end with the layer of the arguments
    over the one aggregate. -/
theorem algebraic : Cert.algebraic_KernelIdeal_ReferenceIdeal := by
  intro m ρ m' ρ' hpre hagree
  refine ⟨fun c => Cert.Layer.out (m ((c.tc : Thread Cert.KernelIdeal.nD Cert.KernelIdeal.τ).loc Cert.KernelIdeal.main_arg0))
      (Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m hpre c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v18_eq _ _ _ _).trans ?_
    rw [Cert.ReferenceIdeal.RefValue.ref_eq, (hagree c).1, (hagree c).2.1, (hagree c).2.2.1, (hagree c).2.2.2]

end Cert.Join

end
-- ==== Proof.lean ====
/- The proof of the claim: a graph-convolution layer whose kernel adds the neighbour aggregate to the node features and
   multiplies by the weights block by block on the matrix unit, against the reference that does the same in one matrix
   product over all rows. Both compute, at row i and class c, the sum over k of (x[i, k] + a[i, k]) * w[k, c] plus b[c]
   (Proof/Spec.lean), a being the sum, over the edges into i, of the source's row of x. The kernel's host code gathers
   those rows with a fill value for a source outside the array; the reference's gather has no fill; so the two agree
   exactly where every source indexes the array, a negative source counting from the end: the precondition says that of
   the sources, and Proof/Join.lean joins the two sides under it. The three frames are the generated frames and the
   reference's generated run; the kernel's idealization rewrote nothing. -/
import proofs.«404640_j48266842472560_1_alg».proof.Defs
import proofs.«404640_j48266842472560_1_alg».proof.Proof.Gen.Kernel
import proofs.«404640_j48266842472560_1_alg».proof.Proof.Gen.Kernel.Skeleton
import proofs.«404640_j48266842472560_1_alg».proof.Proof.Gen.Kernel.Launch
import proofs.«404640_j48266842472560_1_alg».proof.Proof.Gen.Kernel.Points
import proofs.«404640_j48266842472560_1_alg».proof.Proof.Gen.Kernel.Frame
import proofs.«404640_j48266842472560_1_alg».proof.Proof.Gen.KernelIdeal
import proofs.«404640_j48266842472560_1_alg».proof.Proof.Gen.KernelIdeal.Skeleton
import proofs.«404640_j48266842472560_1_alg».proof.Proof.Gen.KernelIdeal.Launch
import proofs.«404640_j48266842472560_1_alg».proof.Proof.Gen.KernelIdeal.Points
import proofs.«404640_j48266842472560_1_alg».proof.Proof.Gen.KernelIdeal.Frame
import proofs.«404640_j48266842472560_1_alg».proof.Proof.Gen.ReferenceIdeal
import proofs.«404640_j48266842472560_1_alg».proof.Proof.Gen.Pre_finite_inputs
import proofs.«404640_j48266842472560_1_alg».proof.Proof.Gen.KernelIdeal.Value
import proofs.«404640_j48266842472560_1_alg».proof.Proof.Gen.ReferenceIdeal.Run
import proofs.«404640_j48266842472560_1_alg».proof.Proof.Gen.ReferenceIdeal.Read
import proofs.«404640_j48266842472560_1_alg».proof.Proof.Join
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Join.algebraic⟩

end Cert.Proof

end
